-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x4 : Shape := ⟨2, ![8, 4]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x4 : S_.BroadcastsInDim S8x4 (![] : Fin 0 → Fin S8x4.rank)
  reducesTo_S8x4_S_d0_1 : S8x4.ReducesTo [0, 1] S_

variable [Facts]

def fn {F : FTy → Type} [FloatOps F] (main_arg0 : FVec F S8x16x512x512 .f32) (main_arg1 : FVec F S8x16x512x512 .f32) (main_arg2 : IVec S8x4 32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x16x512x512 .f32 := Host.absf main_arg1
  let main_cst_0 : FVec F S_ .f32 := constant S_ .f32 0x7F800000#32
  let main_v5 : FVec F S8x16x512x512 .f32 := broadcastInDim S8x16x512x512 ![] bcast_S_S8x16x512x512 main_cst_0
  let main_v6 : IVec S8x16x512x512 1 := cmpf .olt main_v4 main_v5
  let main_c_1 : IVec S_ 1 := constantI S_ 1 1#1
  let main_v7 : IVec S_ 1 := (fun x v => Host.reduce IntOp.andi x v reducesTo_S8x16x512x512_S_d0_1_2_3 h_S_) main_v6 main_c_1
  let main_v8 : IVec S_ 1 := andi main_v3 main_v7
  let main_c_2 : IVec S_ 32 := constantI S_ 32 0#32
  let main_v9 : IVec S8x4 32 := broadcastInDim S8x4 ![] bcast_S_S8x4 main_c_2
  let main_v10 : IVec S8x4 1 := cmpi .sge main_arg2 main_v9
  let main_c_3 : IVec S_ 32 := constantI S_ 32 16#32
  let main_v11 : IVec S8x4 32 := broadcastInDim S8x4 ![] bcast_S_S8x4 main_c_3
  let main_v12 : IVec S8x4 1 := cmpi .slt main_arg2 main_v11
  let main_v13 : IVec S8x4 1 := andi main_v10 main_v12
  let main_c_4 : IVec S_ 1 := constantI S_ 1 1#1
  let main_v14 : IVec S_ 1 := (fun x v => Host.reduce IntOp.andi x v reducesTo_S8x4_S_d0_1 h_S_) main_v13 main_c_4
  let main_v15 : IVec S_ 1 := andi main_v8 main_v14
  main_v15
-- ==== Kernel.lean ====
abbrev S8x16x512x512 : Shape := ⟨4, ![8, 16, 512, 512]⟩
abbrev S8x4 : Shape := ⟨2, ![8, 4]⟩
abbrev S8x4x1x1 : Shape := ⟨4, ![8, 4, 1, 1]⟩
abbrev S1x1x512x512 : Shape := ⟨4, ![1, 1, 512, 512]⟩
abbrev S1x1 : Shape := ⟨2, ![1, 1]⟩
abbrev S1x1x1x1 : Shape := ⟨4, ![1, 1, 1, 1]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩
abbrev S8 : Shape := ⟨1, ![8]⟩

abbrev nBuf : Space → Nat
  | .hbm => 13
  | .vmem => 6
  | .smem => 1
  | _ => 0

abbrev bufTy : (tb : Table) → Fin (tcTables nBuf tb) → BufTy
  | .hbm, ⟨0, _⟩ => ⟨S8x16x512x512, .f32⟩
  | .hbm, ⟨1, _⟩ => ⟨S8x16x512x512, .f32⟩
  | .hbm, ⟨2, _⟩ => ⟨S8x4x1x1, .f32⟩
  | .hbm, ⟨3, _⟩ => ⟨S8x4, .f32⟩
  | .hbm, ⟨4, _⟩ => ⟨S_, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x1x1, .f32⟩
  | .local _ .vmem, ⟨5, _⟩ => ⟨S1x1x1x1, .f32⟩
  | .local _ .smem, ⟨0, _⟩ => ⟨S8x4, .i32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def cc0_transform_0 (k0_off1_inb : ∀ i : grid0.Coords, ∀ a, (k0_off1 i) a + S1x1.size a ≤ S8x4.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S8x4) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_1 (k0_off1_inb : ∀ i : grid0.Coords, ∀ a, (k0_off1 i) a + S1x1.size a ≤ S8x4.size a) (numel1_S1x1 : S1x1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S8x4) ![v0.toNat, v1.toNat] S1x1.size (k0_off1_inb i)) numel1_S1x1
  let c0_i32 : BitVec 32 := 0#32
  let c0_i32_0 : BitVec 32 := 0#32
  let c0_i32_1 : BitVec 32 := 0#32
  ![arg0.toNat, v2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  numel1_S1x1 : S1x1.numel = 1
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  shapeCasts_S1x1_S1x1x1x1 : S1x1.ShapeCasts S1x1x1x1
  inb_S1x1x1x1_S1x1x1x1_0_0_0_0 : ∀ a, (![0, 0, 0, 0] : Fin 4 → Nat) a + S1x1x1x1.size a ≤ S1x1x1x1.size a
  h_S1x1x1x1 : 0 < S1x1x1x1.numel
  shapeCasts_S8x4x1x1_S8x4 : S8x4x1x1.ShapeCasts S8x4
  reducesTo_S8x4_S8_d1 : S8x4.ReducesTo [1] S8
  h_S_ : 0 < S_.numel
  bcast_S_S8 : S_.BroadcastsInDim S8 (![] : Fin 0 → Fin S8.rank)
  reducesTo_S8_S_d0 : S8.ReducesTo [0] S_
  hrank0 : 0 < grid0.rank
  k0_off1_inb : ∀ i : grid0.Coords, ∀ a, (k0_off1 i) a + S1x1.size a ≤ S8x4.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1x1 pf i = cc0_transform_0 k0_off1_inb numel1_S1x1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1x1 pf i = cc0_transform_1 k0_off1_inb numel1_S1x1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1x1.size a ≤ S8x4x1x1.size a
  hwx0_2 : ∀ i : grid0.Coords, EltTy.bits .f32 = 32 ∨ (Rect.block (s := S8x4x1x1) S1x1x1x1.size (cc0_transform_2 i) (hinb0_2 i)).WholeWords (EltTy.packing .f32)

variable [Facts₀]

abbrev spec0_0 : Pipeline.WinSpec sig grid0.rank :=
  Pipeline.WinSpec.ofSpec (Memref.whole main_arg0) S1x1x512x512.size reads0_0 false false 2 stage0_0 sem0_0 nbuf0_0 hstage0_0

abbrev spec0_1 : Pipeline.WinSpec sig grid0.rank :=
  Pipeline.WinSpec.ofSpec (Memref.whole main_arg1) S1x1x512x512.size reads0_1 false false 2 stage0_1 sem0_1 nbuf0_1 hstage0_1

abbrev spec0_2 : Pipeline.WinSpec sig grid0.rank :=
  Pipeline.WinSpec.ofSpec (Memref.whole main_v0) S1x1x1x1.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1x1 pf | 1 => cc0_transform_1 k0_off1_inb numel1_S1x1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1x1 pf i a + 1) * S1x1x512x512.size a ≤ S8x16x512x512.size a), EltTy.bits .f32 = 32 ∨ (Rect.block (s := S8x16x512x512) S1x1x512x512.size (cc0_transform_0 k0_off1_inb numel1_S1x1 pf i) h).WholeWords (EltTy.packing .f32)) ∧
  (∀ i : grid0.Coords, ∃ h : (∀ a, (cc0_transform_1 k0_off1_inb numel1_S1x1 pf i a + 1) * S1x1x512x512.size a ≤ S8x16x512x512.size a), EltTy.bits .f32 = 32 ∨ (Rect.block (s := S8x16x512x512) S1x1x512x512.size (cc0_transform_1 k0_off1_inb numel1_S1x1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x16x512x512 : Shape := ⟨4, ![8, 16, 512, 512]⟩
abbrev S8x4 : Shape := ⟨2, ![8, 4]⟩
abbrev S8x4x1x1 : Shape := ⟨4, ![8, 4, 1, 1]⟩
abbrev S_ : Shape := ⟨0, ![]⟩
abbrev S8x4x1 : Shape := ⟨3, ![8, 4, 1]⟩
abbrev S1 : Shape := ⟨1, ![1]⟩
abbrev S1x1x1 : Shape := ⟨3, ![1, 1, 1]⟩
abbrev S8x4x512x512 : Shape := ⟨4, ![8, 4, 512, 512]⟩
abbrev S8x4x512 : Shape := ⟨3, ![8, 4, 512]⟩
abbrev S8 : Shape := ⟨1, ![8]⟩

abbrev nBuf : Space → Nat
  | .hbm => 85
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S8x16x512x512, .f32⟩
  | .hbm, ⟨2, _⟩ => ⟨S8x4, .i32⟩
  | .hbm, ⟨3, _⟩ => ⟨S8x4x1x1, .i32⟩
  | .hbm, ⟨4, _⟩ => ⟨S_, .i32⟩
  | .hbm, ⟨5, _⟩ => ⟨S8x4x1x1, .i32⟩
  | .hbm, ⟨6, _⟩ => ⟨S8x4x1x1, .i1⟩
  | .hbm, ⟨7, _⟩ => ⟨S_, .i32⟩
  | .hbm, ⟨8, _⟩ => ⟨S8x4x1x1, .i32⟩
  | .hbm, ⟨9, _⟩ => ⟨S8x4x1x1, .i32⟩
  | .hbm, ⟨10, _⟩ => ⟨S8x4x1x1, .i32⟩
  | .hbm, ⟨11, _⟩ => ⟨S8x4x1, .i32⟩
  | .hbm, ⟨12, _⟩ => ⟨S1, .i32⟩
  | .hbm, ⟨13, _⟩ => ⟨S_, .i32⟩
  | .hbm, ⟨14, _⟩ => ⟨S8x4x1, .i32⟩
  | .hbm, ⟨15, _⟩ => ⟨S8x4x1, .i1⟩
  | .hbm, ⟨16, _⟩ => ⟨S1x1x1, .i32⟩
  | .hbm, ⟨17, _⟩ => ⟨S8x4x1, .i32⟩
  | .hbm, ⟨18, _⟩ => ⟨S8x4x1, .i1⟩
  | .hbm, ⟨19, _⟩ => ⟨S8x4x1, .i1⟩
  | .hbm, ⟨20, _⟩ => ⟨S_, .i1⟩
  | .hbm, ⟨21, _⟩ => ⟨S8x4, .i1⟩
  | .hbm, ⟨22, _⟩ => ⟨S8x4x512x512, .f32⟩
  | .hbm, ⟨23, _⟩ => ⟨S8x4x512x512, .i1⟩
  | .hbm, ⟨24, _⟩ => ⟨S_, .f32⟩
  | .hbm, ⟨25, _⟩ => ⟨S8x4x512x512, .f32⟩
  | .hbm, ⟨26, _⟩ => ⟨S8x4x512x512, .f32⟩
  | .hbm, ⟨27, _⟩ => ⟨S_, .i32⟩
  | .hbm, ⟨28, _⟩ => ⟨S8x4x1x1, .i32⟩
  | .hbm, ⟨29, _⟩ => ⟨S8x4x1x1, .i1⟩
  | .hbm, ⟨30, _⟩ => ⟨S_, .i32⟩
  | .hbm, ⟨31, _⟩ => ⟨S8x4x1x1, .i32⟩
  | .hbm, ⟨32, _⟩ => ⟨S8x4x1x1, .i32⟩
  | .hbm, ⟨33, _⟩ => ⟨S8x4x1x1, .i32⟩
  | .hbm, ⟨34, _⟩ => ⟨S8x4x1, .i32⟩
  | .hbm, ⟨35, _⟩ => ⟨S1, .i32⟩
  | .hbm, ⟨36, _⟩ => ⟨S_, .i32⟩
  | .hbm, ⟨37, _⟩ => ⟨S8x4x1, .i32⟩
  | .hbm, ⟨38, _⟩ => ⟨S8x4x1, .i1⟩
  | .hbm, ⟨39, _⟩ => ⟨S1x1x1, .i32⟩
  | .hbm, ⟨40, _⟩ => ⟨S8x4x1, .i32⟩
  | .hbm, ⟨41, _⟩ => ⟨S8x4x1, .i1⟩
  | .hbm, ⟨42, _⟩ => ⟨S8x4x1, .i1⟩
  | .hbm, ⟨43, _⟩ => ⟨S_, .i1⟩
  | .hbm, ⟨44, _⟩ => ⟨S8x4, .i1⟩
  | .hbm, ⟨45, _⟩ => ⟨S8x4x512x512, .f32⟩
  | .hbm, ⟨46, _⟩ => ⟨S8x4x512x512, .i1⟩
  | .hbm, ⟨47, _⟩ => ⟨S_, .f32⟩
  | .hbm, ⟨48, _⟩ => ⟨S8x4x512x512, .f32⟩
  | .hbm, ⟨49, _⟩ => ⟨S8x4x512x512, .f32⟩
  | .hbm, ⟨50, _⟩ => ⟨S8x4x512x512, .f32⟩
  | .hbm, ⟨51, _⟩ => ⟨S_, .f32⟩
  | .hbm, ⟨52, _⟩ => ⟨S8x4x512, .f32⟩
  | .hbm, ⟨53, _⟩ => ⟨S_, .f32⟩
  | .hbm, ⟨54, _⟩ => ⟨S8x4x512, .f32⟩
  | .hbm, ⟨55, _⟩ => ⟨S_, .f32⟩
  | .hbm, ⟨56, _⟩ => ⟨S8x4x512, .f32⟩
  | .hbm, ⟨57, _⟩ => ⟨S8x4x512, .f32⟩
  | .hbm, ⟨58, _⟩ => ⟨S_, .f32⟩
  | .hbm, ⟨59, _⟩ => ⟨S8x4x512, .f32⟩
  | .hbm, ⟨60, _⟩ => ⟨S8x4x512, .f32⟩
  | .hbm, ⟨61, _⟩ => ⟨S_, .f32⟩
  | .hbm, ⟨62, _⟩ => ⟨S8x4x512, .f32⟩
  | .hbm, ⟨63, _⟩ => ⟨S8x4x512, .f32⟩
  | .hbm, ⟨64, _⟩ => ⟨S_, .f32⟩
  | .hbm, ⟨65, _⟩ => ⟨S8x4x512, .f32⟩
  | .hbm, ⟨66, _⟩ => ⟨S8x4x512, .f32⟩
  | .hbm, ⟨67, _⟩ => ⟨S8x4x512, .f32⟩
  | .hbm, ⟨68, _⟩ => ⟨S_, .f32⟩
  | .hbm, ⟨69, _⟩ => ⟨S8x4, .f32⟩
  | .hbm, ⟨70, _⟩ => ⟨S_, .f32⟩
  | .hbm, ⟨71, _⟩ => ⟨S8x4, .f32⟩
  | .hbm, ⟨72, _⟩ => ⟨S8x4, .f32⟩
  | .hbm, ⟨73, _⟩ => ⟨S_, .f32⟩
  | .hbm, ⟨74, _⟩ => ⟨S8x4, .f32⟩
  | .hbm, ⟨75, _⟩ => ⟨S8x4, .f32⟩
  | .hbm, ⟨76, _⟩ => ⟨S_, .f32⟩
  | .hbm, ⟨77, _⟩ => ⟨S8, .f32⟩
  | .hbm, ⟨78, _⟩ => ⟨S_, .f32⟩
  | .hbm, ⟨79, _⟩ => ⟨S8, .f32⟩
  | .hbm, ⟨80, _⟩ => ⟨S8, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_cst : Ref sig .tc := ⟨.hbm, 51, rfl⟩
abbrev main_v4 : Ref sig .tc := ⟨.hbm, 52, rfl⟩
abbrev main_cst_0 : Ref sig .tc := ⟨.hbm, 53, rfl⟩
abbrev main_v5 : Ref sig .tc := ⟨.hbm, 54, rfl⟩
abbrev main_cst_1 : Ref sig .tc := ⟨.hbm, 55, rfl⟩
abbrev main_v6 : Ref sig .tc := ⟨.hbm, 56, rfl⟩
abbrev main_v7 : Ref sig .tc := ⟨.hbm, 57, rfl⟩
abbrev main_cst_2 : Ref sig .tc := ⟨.hbm, 58, rfl⟩
abbrev main_v8 : Ref sig .tc := ⟨.hbm, 59, rfl⟩
abbrev main_v9 : Ref sig .tc := ⟨.hbm, 60, rfl⟩
abbrev main_cst_3 : Ref sig .tc := ⟨.hbm, 61, rfl⟩
abbrev main_v10 : Ref sig .tc := ⟨.hbm, 62, rfl⟩
abbrev main_v11 : Ref sig .tc := ⟨.hbm, 63, rfl⟩
abbrev main_cst_4 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_5 : Ref sig .tc := ⟨.hbm, 68, rfl⟩
abbrev main_v15 : Ref sig .tc := ⟨.hbm, 69, rfl⟩
abbrev main_cst_6 : Ref sig .tc := ⟨.hbm, 70, rfl⟩
abbrev main_v16 : Ref sig .tc := ⟨.hbm, 71, rfl⟩
abbrev main_v17 : Ref sig .tc := ⟨.hbm, 72, rfl⟩
abbrev main_cst_7 : Ref sig .tc := ⟨.hbm, 73, rfl⟩
abbrev main_v18 : Ref sig .tc := ⟨.hbm, 74, rfl⟩
abbrev main_v19 : Ref sig .tc := ⟨.hbm, 75, rfl⟩
abbrev main_cst_8 : Ref sig .tc := ⟨.hbm, 76, rfl⟩
abbrev main_v20 : Ref sig .tc := ⟨.hbm, 77, rfl⟩
abbrev main_cst_9 : Ref sig .tc := ⟨.hbm, 78, rfl⟩
abbrev main_v21 : Ref sig .tc := ⟨.hbm, 79, rfl⟩
abbrev main_v22 : Ref sig .tc := ⟨.hbm, 80, rfl⟩
abbrev main_cst_10 : Ref sig .tc := ⟨.hbm, 81, rfl⟩
abbrev main_v23 : Ref sig .tc := ⟨.hbm, 82, rfl⟩
abbrev main_cst_11 : Ref sig .tc := ⟨.hbm, 83, rfl⟩
abbrev main_v24 : Ref sig .tc := ⟨.hbm, 84, rfl⟩

abbrev nD : Nat := 1
abbrev τ : Topo := Topo.v7x

variable {F : FTy → Type} [FloatOps F]

class Facts₀ : Prop where
  bcast_S8x4_S8x4x1x1_0_1 : S8x4.BroadcastsInDim S8x4x1x1 (![0, 1] : Fin 2 → Fin S8x4x1x1.rank)
  bcast_S_S8x4x1x1 : S_.BroadcastsInDim S8x4x1x1 (![] : Fin 0 → Fin S8x4x1x1.rank)
  shapeCasts_S8x4x1x1_S8x4x1 : S8x4x1x1.ShapeCasts S8x4x1
  bcast_S_S8x4x1 : S_.BroadcastsInDim S8x4x1 (![] : Fin 0 → Fin S8x4x1.rank)
  bcast_S1_S1x1x1_2 : S1.BroadcastsInDim S1x1x1 (![2] : Fin 1 → Fin S1x1x1.rank)
  bcast_S1x1x1_S8x4x1_0_1_2 : S1x1x1.BroadcastsInDim S8x4x1 (![0, 1, 2] : Fin 3 → Fin S8x4x1.rank)
  reducesTo_S8x4x1_S8x4_d2 : S8x4x1.ReducesTo [2] S8x4
  h_S_ : 0 < S_.numel
  bcast_S8x4_S8x4x512x512_0_1 : S8x4.BroadcastsInDim S8x4x512x512 (![0, 1] : Fin 2 → Fin S8x4x512x512.rank)
  bcast_S_S8x4x512x512 : S_.BroadcastsInDim S8x4x512x512 (![] : Fin 0 → Fin S8x4x512x512.rank)
  reducesTo_S8x4x512x512_S8x4x512_d3 : S8x4x512x512.ReducesTo [3] S8x4x512
  bcast_S_S8x4x512 : S_.BroadcastsInDim S8x4x512 (![] : Fin 0 → Fin S8x4x512.rank)
  reducesTo_S8x4x512_S8x4_d2 : S8x4x512.ReducesTo [2] S8x4
  bcast_S_S8x4 : S_.BroadcastsInDim S8x4 (![] : Fin 0 → Fin S8x4.rank)
  reducesTo_S8x4_S8_d1 : S8x4.ReducesTo [1] S8
  bcast_S_S8 : S_.BroadcastsInDim S8 (![] : Fin 0 → Fin S8.rank)
  reducesTo_S8_S_d0 : S8.ReducesTo [0] S_
  gather_S8x16x512x512_S8x4x1_S8x4x512x512_23_1_0_0_1_2_11512512_wf : GatherDims.WF S8x16x512x512 S8x4x1 S8x4x512x512 [2, 3] [1] [0] [1] [0] 2 ![1, 1, 512, 512]

variable [Facts₀]

def gather_S8x16x512x512_S8x4x1_S8x4x512x512_23_1_0_0_1_2_11512512 : GatherDims S8x16x512x512 S8x4x1 S8x4x512x512 where
  offsetDims := [2, 3]
  collapsedSliceDims := [1]
  operandBatchingDims := [0]
  startIndicesBatchingDims := [0]
  startIndexMap := [1]
  indexVectorDim := 2
  sliceSizes := ![1, 1, 512, 512]
  wf := gather_S8x16x512x512_S8x4x1_S8x4x512x512_23_1_0_0_1_2_11512512_wf

class Facts : Prop extends Facts₀ where

variable [Facts]
-- ==== Proof.LabelRange.lean ====
/-
  The label table is in range. The precondition's last conjunct says, for every entry of the [8, 4] integer
  table, `0 ≤ entry` and `entry < 16`, both compared as signed 32-bit words, and then takes the conjunction
  over the whole table. A word that is nonnegative as a signed number reads the same signed and unsigned, so
  each entry, read unsigned, is a channel number below 16. Nothing here depends on how floats are read.
-/
import proofs.«413899_j6021544149734_1_alg».proof.Pre_finite_inputs
import proofs.«413899_j6021544149734_1_alg».proof.Proof.Gen.Pre_finite_inputs
import Idealize.ShloMosaic.Lib.ReduceAll

namespace Cert.LabelRange

open Idealize.ShloMosaic Cert.Pre_finite_inputs

/-- The rank-0 shape has exactly one index. -/
instance : Subsingleton S_.Idx := ⟨fun a b => funext fun d => d.elim0⟩

/-- A 32-bit word between 0 and 16 as a signed number is below 16 as an unsigned one. -/
theorem toNat_lt_sixteen (w : BitVec 32) (h0 : (0#32 : BitVec 32).toInt ≤ w.toInt)
    (h1 : w.toInt < (16#32 : BitVec 32).toInt) : w.toNat < 16 := by
  have z : (0#32 : BitVec 32).toInt = 0 := by decide
  have s : (16#32 : BitVec 32).toInt = 16 := by decide
  rw [z] at h0
  rw [s] at h1
  have hlt : 2 * w.toNat < 2 ^ 32 := BitVec.toInt_pos_iff.1 h0
  rw [BitVec.toInt_eq_toNat_of_lt hlt] at h1
  omega

/-- Under the precondition every entry of the label table is a channel number below 16. -/
theorem label_lt {F : FTy → Type} [FloatOps F] (p t : FVec F S8x16x512x512 .f32) (l : IVec S8x4 32)
    (h : fn (F := F) p t l = fun _ => 1#1) (i : S8x4.Idx) : (l i).toNat < 16 := by
  have e := congrFun h (fun d => d.elim0)
  dsimp only [fn] at e
  obtain ⟨-, eall⟩ := IntOp.andi_eq_one.1 e
  have ei := Host.reduce_andi_all _ _ _ _ _ eall i
  obtain ⟨ege, elt⟩ := IntOp.andi_eq_one.1 ei
  exact toNat_lt_sixteen (l i) (IntOp.cmpi_sge.1 ege) (IntOp.cmpi_slt.1 elt)

end Cert.LabelRange
-- ==== Proof.TablesInsideBits.lean ====
/-
  The selected blocks lie inside their arrays. The index maps of the two input windows send the grid point
  (b, k) to the block (b, labelseq[b, k], 0, 0) of size [1, 1, 512, 512] in an array of shape [8, 16, 512, 512].
  Axis 0: b < 8. Axis 1: the table's word, read unsigned, is below 16 by the precondition. Axes 2 and 3: the one
  block of 512 fills the axis. The element type is 32 bits wide, so every transfer ends on a word boundary.
-/
import proofs.«413899_j6021544149734_1_alg».proof.Proof.Gen.Kernel.Frame
import proofs.«413899_j6021544149734_1_alg».proof.Proof.LabelRange

set_option maxRecDepth 16384

noncomputable section

namespace Cert.Kernel.TablesInside

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- Every word of the prefetched table is a channel number below 16, when the precondition holds of the launch
    memory on the program's one device. -/
theorem table_lt
    (h : Cert.Pre_finite_inputs.fn (F := F) (m (((0 : Dev nD) : Thread nD τ).loc main_arg0))
      (m (((0 : Dev nD) : Thread nD τ).loc main_arg1)) (m (((0 : Dev nD) : Thread nD τ).loc main_arg2)) = fun _ => 1#1)
    (x : S8x4.Idx) : (tbl m 0 x).toNat < 16 :=
  Cert.LabelRange.label_lt _ _ _ h x

/-- A block (b, c, 0, 0) of size [1, 1, 512, 512] with b < 8 and c < 16 lies inside [8, 16, 512, 512]. -/
theorem block_inside (b c : Nat) (hb : b < 8) (hc : c < 16) (a : Fin 4) :
    ((![b, c, 0, 0] : Fin 4 → Nat) a + 1) * S1x1x512x512.size a ≤ S8x16x512x512.size a := by
  fin_cases a <;> simp [S1x1x512x512, S8x16x512x512] <;> omega

/-- A grid coordinate, passed through a 32-bit word, is unchanged and below its bound. -/
theorem coord0_lt (i : grid0.Coords) : (BitVec.ofNat 32 (i 0).val).toNat < 8 := by
  have hi : (i 0).val < 8 := (i 0).isLt
  rw [BitVec.toNat_ofNat]
  omega

/-- The pipeline's side condition on the table's contents. -/
theorem ok_of_pre
    (h : Cert.Pre_finite_inputs.fn (F := F) (m (((0 : Dev nD) : Thread nD τ).loc main_arg0))
      (m (((0 : Dev nD) : Thread nD τ).loc main_arg1)) (m (((0 : Dev nD) : Thread nD τ).loc main_arg2)) = fun _ => 1#1) :
    Ok m := by
  refine ⟨fun i => ?_, fun i => ?_⟩
  · obtain ⟨w, hw, e⟩ : ∃ w : BitVec 32, w.toNat < 16 ∧
        cc0_transform_0 k0_off1_inb numel1_S1x1 (tbl m) i = ![(BitVec.ofNat 32 (i 0).val).toNat, w.toNat, 0, 0] :=
      ⟨_, table_lt m h _, rfl⟩
    refine ⟨fun a => ?_, Or.inl rfl⟩
    rw [e]
    exact block_inside _ _ (coord0_lt i) hw a
  · obtain ⟨w, hw, e⟩ : ∃ w : BitVec 32, w.toNat < 16 ∧
        cc0_transform_1 k0_off1_inb numel1_S1x1 (tbl m) i = ![(BitVec.ofNat 32 (i 0).val).toNat, w.toNat, 0, 0] :=
      ⟨_, table_lt m h _, rfl⟩
    refine ⟨fun a => ?_, Or.inl rfl⟩
    rw [e]
    exact block_inside _ _ (coord0_lt i) hw a

end Cert.Kernel.TablesInside

end
-- ==== Proof.TablesInsideIdeal.lean ====
/-
  The selected blocks lie inside their arrays. The index maps of the two input windows send the grid point
  (b, k) to the block (b, labelseq[b, k], 0, 0) of size [1, 1, 512, 512] in an array of shape [8, 16, 512, 512].
  Axis 0: b < 8. Axis 1: the table's word, read unsigned, is below 16 by the precondition. Axes 2 and 3: the one
  block of 512 fills the axis. The element type is 32 bits wide, so every transfer ends on a word boundary.
-/
import proofs.«413899_j6021544149734_1_alg».proof.Proof.Gen.KernelIdeal.Frame
import proofs.«413899_j6021544149734_1_alg».proof.Proof.LabelRange

set_option maxRecDepth 16384

noncomputable section

namespace Cert.KernelIdeal.TablesInside

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- Every word of the prefetched table is a channel number below 16, when the precondition holds of the launch
    memory on the program's one device. -/
theorem table_lt
    (h : Cert.Pre_finite_inputs.fn (F := F) (m (((0 : Dev nD) : Thread nD τ).loc main_arg0))
      (m (((0 : Dev nD) : Thread nD τ).loc main_arg1)) (m (((0 : Dev nD) : Thread nD τ).loc main_arg2)) = fun _ => 1#1)
    (x : S8x4.Idx) : (tbl m 0 x).toNat < 16 :=
  Cert.LabelRange.label_lt _ _ _ h x

/-- A block (b, c, 0, 0) of size [1, 1, 512, 512] with b < 8 and c < 16 lies inside [8, 16, 512, 512]. -/
theorem block_inside (b c : Nat) (hb : b < 8) (hc : c < 16) (a : Fin 4) :
    ((![b, c, 0, 0] : Fin 4 → Nat) a + 1) * S1x1x512x512.size a ≤ S8x16x512x512.size a := by
  fin_cases a <;> simp [S1x1x512x512, S8x16x512x512] <;> omega

/-- A grid coordinate, passed through a 32-bit word, is unchanged and below its bound. -/
theorem coord0_lt (i : grid0.Coords) : (BitVec.ofNat 32 (i 0).val).toNat < 8 := by
  have hi : (i 0).val < 8 := (i 0).isLt
  rw [BitVec.toNat_ofNat]
  omega

/-- The pipeline's side condition on the table's contents. -/
theorem ok_of_pre
    (h : Cert.Pre_finite_inputs.fn (F := F) (m (((0 : Dev nD) : Thread nD τ).loc main_arg0))
      (m (((0 : Dev nD) : Thread nD τ).loc main_arg1)) (m (((0 : Dev nD) : Thread nD τ).loc main_arg2)) = fun _ => 1#1) :
    Ok m := by
  refine ⟨fun i => ?_, fun i => ?_⟩
  · obtain ⟨w, hw, e⟩ : ∃ w : BitVec 32, w.toNat < 16 ∧
        cc0_transform_0 k0_off1_inb numel1_S1x1 (tbl m) i = ![(BitVec.ofNat 32 (i 0).val).toNat, w.toNat, 0, 0] :=
      ⟨_, table_lt m h _, rfl⟩
    refine ⟨fun a => ?_, Or.inl rfl⟩
    rw [e]
    exact block_inside _ _ (coord0_lt i) hw a
  · obtain ⟨w, hw, e⟩ : ∃ w : BitVec 32, w.toNat < 16 ∧
        cc0_transform_1 k0_off1_inb numel1_S1x1 (tbl m) i = ![(BitVec.ofNat 32 (i 0).val).toNat, w.toNat, 0, 0] :=
      ⟨_, table_lt m h _, rfl⟩
    refine ⟨fun a => ?_, Or.inl rfl⟩
    rw [e]
    exact block_inside _ _ (coord0_lt i) hw a

end Cert.KernelIdeal.TablesInside

end
-- ==== Proof.BodyValueIdeal.lean ====
/-
  What the body leaves in the output's staging buffer. The body makes one store, of the whole [1, 1, 1, 1]
  buffer, and its two loads read the whole input buffers: so after the body the output buffer holds the stored
  value computed from the two input blocks, whatever it held before. At grid point t the input buffers hold the
  blocks the index maps select there.
-/
import proofs.«413899_j6021544149734_1_alg».proof.Proof.Gen.KernelIdeal.Frame
import Idealize.ShloMosaic.Lib.Pipeline.Value
import Idealize.ShloMosaic.Lib.Tactic

set_option maxRecDepth 16384

noncomputable section

namespace Cert.KernelIdeal.BodyValue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem zero_offsets : (![0, 0, 0, 0] : Fin 4 → Nat) = fun _ => 0 := funext fun a => by fin_cases a <;> rfl

/-- After the body the output's staging buffer holds the stored value of the two loaded blocks. -/
theorem stored (c : Dev nD) (i : grid0.Coords) (a3 : Memref sig .tc .vmem S1x1x512x512 .f32) (h3 : a3.IsWhole)
    (a4 : Memref sig .tc .vmem S1x1x512x512 .f32) (h4 : a4.IsWhole) (a5 : Memref sig .tc .vmem S1x1x1x1 .f32) (h5 : a5.IsWhole)
    (x0 x1 : Vec F S1x1x512x512 .f32) (xt0 : TbBuf0 (F := F) c tbM0_0) :
    out0_A_2 c i a3 h3 a4 h4 a5 h5 x0 x1 xt0 = k0_pay1 x0 x1 := by
  unfold out0_A_2
  rw [View.read_writes_eq_canon _ _ _ (cover0_A_2 c i a3 h3 a4 h4 a5 h5 x0 x1 xt0)]
  unfold kernelRun0_A
  dsimp only
  sl_unfold_words
  rw [View.canon_unit_zero zero_offsets]
  simp only [View.readAt_eq_ld, h3.read_unread, h4.read_unread, View.ld_unit_zero (S := S1x1x512x512) zero_offsets]

/-- At grid point t the output's staging buffer ends holding the stored value of the two blocks selected there. -/
theorem outsAt_eq (hO : Ok m) (c : Dev nD) (t : Fin (cfgM m hO).N) :
    outsAt0 m hO c t = k0_pay1 (iblk m hO c 0 t) (iblk m hO c 1 t) := by
  unfold outsAt0
  exact stored c _ _ _ _ _ _ _ _ _ _

end Cert.KernelIdeal.BodyValue

end
-- ==== Proof.SliceLoss.lean ====
/-
  The loss of one selected channel slice, as a function of the slice alone.

  For a pair of 512 x 512 slices P (prediction) and T (target) over the extended reals, row h has the ratio

      (2 * sum_w P h w * T h w + eps) / (sum_w P h w + sum_w T h w + eps),

  and the slice's loss is 1 minus the mean over the 512 rows of that ratio. The four constants 2, eps, 512 and 1
  are kept as the 32-bit float words both programs carry, so that no word is ever evaluated: the two programs
  are compared word against the same word. Division is the extended reals' total division.
-/
import Idealize.ShloMosaic.PureOps.Ideal
import Idealize.ShloMosaic.PureOps.Ideal.Laws

noncomputable section

namespace Cert.SliceLoss

open Idealize.ShloMosaic

/-- The ratio of row `h`: twice the row's inner product plus eps, over the two row sums plus eps. -/
def rowRatio (P T : Fin 512 → Fin 512 → EReal) (h : Fin 512) : EReal :=
  Ideal.div
    (Ideal.ofBits .f32 0x40000000#32 * (∑ w : Fin 512, P h w * T h w) + Ideal.ofBits .f32 0x358637BD#32)
    ((∑ w : Fin 512, P h w) + (∑ w : Fin 512, T h w) + Ideal.ofBits .f32 0x358637BD#32)

/-- One slice's loss: 1 minus the rows' mean ratio. -/
def sliceLoss (P T : Fin 512 → Fin 512 → EReal) : EReal :=
  Ideal.ofBits .f32 0x3F800000#32
    - Ideal.div (∑ h : Fin 512, rowRatio P T h) (Ideal.ofBits .f32 0x44000000#32)

/-- The loss depends on the slices only through their entries. -/
theorem sliceLoss_congr {P P' T T' : Fin 512 → Fin 512 → EReal} (hP : ∀ h w, P h w = P' h w)
    (hT : ∀ h w, T h w = T' h w) : sliceLoss P T = sliceLoss P' T' := by
  have eP : P = P' := funext fun h => funext fun w => hP h w
  have eT : T = T' := funext fun h => funext fun w => hT h w
  rw [eP, eT]

end Cert.SliceLoss

end
-- ==== Proof.PayloadIdeal.lean ====
/-
  The body's one stored value, read over the extended reals. The body loads the two [1, 1, 512, 512] blocks,
  drops their two unit axes, forms per row the inner product and the two row sums, the row's ratio, the mean
  of the 512 ratios, and stores 1 minus that mean as a [1, 1, 1, 1] block. Every reshape here moves no entry
  (it only adds or drops axes of extent one), a lane sum over the extended reals is the finite sum over the
  lane coordinate, and the pointwise operations act entry by entry: so the stored entry is `sliceLoss` of the
  two blocks read at (0, 0, h, w).
-/
import proofs.«413899_j6021544149734_1_alg».proof.Proof.Gen.KernelIdeal.Skeleton
import proofs.«413899_j6021544149734_1_alg».proof.Proof.SliceLoss
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx
open Cert.SliceLoss

/-- Entry (h, w) of a [512, 512] view of a [1, 1, 512, 512] block is the block's entry (0, 0, h, w). -/
theorem slice_entry (X : Vec Ideal S1x1x512x512 .f32) (h w : Fin 512) :
    shapeCast S512x512 X shapeCasts_S1x1x512x512_S512x512 (ix2 h w) = X (ix4 (0 : Fin 1) (0 : Fin 1) h w) :=
  shapeCast_apply X shapeCasts_S1x1x512x512_S512x512 (ix2 h w) (ix4 (0 : Fin 1) (0 : Fin 1) h w)
    (by rw [Shape.rowMajor_val_four, Shape.rowMajor_val_two]; simp)

/-- A row's lane sum, kept as a column: entry (h, 0) is the sum over the lane coordinate of row h. -/
theorem row_sum (Y : FVec Ideal S512x512 .f32) (h : Fin 512) :
    shapeCast S512x1 (multiReduction (F := Ideal) .add [1] S512 Y 0x00000000#32 reduces_S512x512_S512 (.inl rfl) rfl)
        shapeCasts_S512_S512x1 (ix2 h (0 : Fin 1))
      = ∑ w : Fin 512, Y (ix2 h w) := by
  refine (shapeCast_apply _ shapeCasts_S512_S512x1 (ix2 h (0 : Fin 1)) (ix1 h)
    (by rw [Shape.rowMajor_val_one, Shape.rowMajor_val_two]; simp)).trans ?_
  refine (Ideal.multiReduction_add_single Y 0x00000000#32 reduces_S512x512_S512 (.inl rfl) rfl (ix1 h)).trans ?_
  refine Finset.sum_congr rfl fun w _ => congrArg Y (funext fun a => Fin.ext ?_)
  match a with
  | ⟨0, _⟩ => rfl
  | ⟨1, _⟩ => rfl

/-- The sum down a [512, 1] column, kept as a [1, 1] block: its one entry is the sum over the 512 rows. -/
theorem col_sum (Z : FVec Ideal S512x1 .f32) :
    shapeCast S1x1 (multiReduction (F := Ideal) .add [0] S1 Z 0x00000000#32 reduces_S512x1_S1 (.inl rfl) rfl)
        shapeCasts_S1_S1x1 (ix2 (0 : Fin 1) (0 : Fin 1))
      = ∑ h : Fin 512, Z (ix2 h (0 : Fin 1)) := by
  refine (shapeCast_apply _ shapeCasts_S1_S1x1 (ix2 (0 : Fin 1) (0 : Fin 1)) (ix1 (0 : Fin 1))
    (by rw [Shape.rowMajor_val_one, Shape.rowMajor_val_two]; simp)).trans ?_
  refine (Ideal.multiReduction_add_single Z 0x00000000#32 reduces_S512x1_S1 (.inl rfl) rfl (ix1 (0 : Fin 1))).trans ?_
  refine Finset.sum_congr rfl fun h _ => congrArg Z (funext fun a => Fin.ext ?_)
  match a with
  | ⟨0, _⟩ => rfl
  | ⟨1, _⟩ => rfl

/-- A [1, 1, 1, 1] view of a [1, 1] block has, at its one index, the block's one entry. -/
theorem unit_entry (W : FVec Ideal S1x1 .f32) (j : S1x1x1x1.Idx) :
    shapeCast S1x1x1x1 W shapeCasts_S1x1_S1x1x1x1 j = W (ix2 (0 : Fin 1) (0 : Fin 1)) := by
  refine shapeCast_apply W shapeCasts_S1x1_S1x1x1x1 j (ix2 (0 : Fin 1) (0 : Fin 1)) ?_
  rw [Shape.rowMajor_val_four, Shape.rowMajor_val_two]
  have h0 : (j 0).val < 1 := (j 0).isLt
  have h1 : (j 1).val < 1 := (j 1).isLt
  have h2 : (j 2).val < 1 := (j 2).isLt
  have h3 : (j 3).val < 1 := (j 3).isLt
  simp
  omega

/-- The value the body stores is the loss of the two blocks' slices. -/
theorem pay_eq (X0 X1 : Vec Ideal S1x1x512x512 .f32) (j : S1x1x1x1.Idx) :
    k0_pay1 (F := Ideal) X0 X1 j
      = sliceLoss (fun h w => X0 (ix4 (0 : Fin 1) (0 : Fin 1) h w)) (fun h w => X1 (ix4 (0 : Fin 1) (0 : Fin 1) h w)) := by
  unfold k0_pay1
  dsimp only
  refine (unit_entry _ j).trans ?_
  simp only [subf_apply, divf_apply, broadcast_apply]
  rw [col_sum]
  unfold sliceLoss
  congr 1
  congr 1
  refine Finset.sum_congr rfl fun h _ => ?_
  simp only [divf_apply, addf_apply, mulf_apply, broadcast_apply]
  rw [row_sum, row_sum, row_sum]
  have e0 : ∀ w : Fin 512, shapeCast S512x512 X0 shapeCasts_S1x1x512x512_S512x512 (ix2 h w)
      = X0 (ix4 (0 : Fin 1) (0 : Fin 1) h w) := fun w => slice_entry X0 h w
  have e1 : ∀ w : Fin 512, shapeCast S512x512 X1 shapeCasts_S1x1x512x512_S512x512 (ix2 h w)
      = X1 (ix4 (0 : Fin 1) (0 : Fin 1) h w) := fun w => slice_entry X1 h w
  simp only [mulf_apply, e0, e1]
  rfl

end Cert.KernelIdeal.Payload

end
-- ==== Proof.BlocksIdeal.lean ====
/-
  Which entries of the arrays a grid point's input blocks hold. At the grid point with batch row b and slot k the
  two input windows' index maps give the block (b, labelseq[b, k], 0, 0): the batch row passes through a 32-bit
  word unchanged (b < 8), the channel is the table's word at (b, k) read unsigned, and the block is one whole
  [512, 512] slice. An entry (0, 0, h, w) of the block is therefore the array's entry (b, labelseq[b, k], h, w).
-/
import proofs.«413899_j6021544149734_1_alg».proof.Proof.Gen.KernelIdeal.Frame
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-- The batch row and the slot of a grid point. -/
abbrev bOf (t : Fin grid0.N) : Fin 8 := ⟨(grid0.coords t 0).val, (grid0.coords t 0).isLt⟩
abbrev kOf (t : Fin grid0.N) : Fin 4 := ⟨(grid0.coords t 1).val, (grid0.coords t 1).isLt⟩

/-- A number below 8 passes through a 32-bit word unchanged. -/
theorem word_small (n : Nat) (hn : n < 8) : (BitVec.ofNat 32 n).toNat = n := by
  rw [BitVec.toNat_ofNat]
  exact Nat.mod_eq_of_lt (by omega)

/-- The index map of input window 0 in closed form: block (b, labelseq[b, k], 0, 0). -/
theorem index_map0 (t : Fin grid0.N) :
    cc0_transform_0 k0_off1_inb numel1_S1x1 (tbl m) (grid0.coords t)
      = ![(grid0.coords t 0).val, (tbl m 0 (ix2 (bOf t) (kOf t))).toNat, 0, 0] := by
  have hb : (grid0.coords t 0).val < 8 := (grid0.coords t 0).isLt
  have hk : (grid0.coords t 1).val < 4 := (grid0.coords t 1).isLt
  funext a
  match a with
  | ⟨0, _⟩ => exact word_small _ hb
  | ⟨1, _⟩ =>
    show (tbl m 0 _).toNat = (tbl m 0 (ix2 (bOf t) (kOf t))).toNat
    refine congrArg (fun x => (tbl m 0 x).toNat) (funext fun d => Fin.ext ?_)
    match d with
    | ⟨0, _⟩ =>
      show (BitVec.ofNat 32 (grid0.coords t 0).val).toNat + 1 * 0 = (grid0.coords t 0).val
      rw [word_small _ hb]; omega
    | ⟨1, _⟩ =>
      show (BitVec.ofNat 32 (grid0.coords t 1).val).toNat + 1 * 0 = (grid0.coords t 1).val
      rw [word_small _ (by omega)]; omega
  | ⟨2, _⟩ => rfl
  | ⟨3, _⟩ => rfl

/-- Entry (0, 0, h, w) of the block input window 0 holds at point t is the array's entry
    (b, labelseq[b, k], h, w). -/
theorem block0_entry (hO : Ok m) (hL : ∀ x : S8x4.Idx, (tbl m 0 x).toNat < 16) (c : Dev nD)
    (t : Fin (cfgM m hO).N) (h w : Fin 512) :
    iblk m hO c 0 t (ix4 (0 : Fin 1) (0 : Fin 1) h w)
      = m ((c : Thread nD τ).loc main_arg0)
          (ix4 (bOf t) (⟨(tbl m 0 (ix2 (bOf t) (kOf t))).toNat, hL _⟩ : Fin 16) h w) := by
  show V m c main_arg0 ((((cfgM m hO).win 0).blk t).view.emb (ix4 (0 : Fin 1) (0 : Fin 1) h w)) = _
  refine congrArg (m ((c : Thread nD τ).loc main_arg0)) (funext fun a => Fin.ext ?_)
  have e := index_map0 m t
  match a with
  | ⟨0, _⟩ =>
    show cc0_transform_0 k0_off1_inb numel1_S1x1 (tbl m) (grid0.coords t) (0 : Fin 4) * 1 + 1 * 0 = (grid0.coords t 0).val
    rw [e]; simp
  | ⟨1, _⟩ =>
    show cc0_transform_0 k0_off1_inb numel1_S1x1 (tbl m) (grid0.coords t) (1 : Fin 4) * 1 + 1 * 0
      = (tbl m 0 (ix2 (bOf t) (kOf t))).toNat
    rw [e]; simp
  | ⟨2, _⟩ =>
    show cc0_transform_0 k0_off1_inb numel1_S1x1 (tbl m) (grid0.coords t) (2 : Fin 4) * 512 + 1 * h.val = h.val
    rw [e]; simp
  | ⟨3, _⟩ =>
    show cc0_transform_0 k0_off1_inb numel1_S1x1 (tbl m) (grid0.coords t) (3 : Fin 4) * 512 + 1 * w.val = w.val
    rw [e]; simp

/-- The index map of input window 1 in closed form: block (b, labelseq[b, k], 0, 0). -/
theorem index_map1 (t : Fin grid0.N) :
    cc0_transform_1 k0_off1_inb numel1_S1x1 (tbl m) (grid0.coords t)
      = ![(grid0.coords t 0).val, (tbl m 0 (ix2 (bOf t) (kOf t))).toNat, 0, 0] := by
  have hb : (grid0.coords t 0).val < 8 := (grid0.coords t 0).isLt
  have hk : (grid0.coords t 1).val < 4 := (grid0.coords t 1).isLt
  funext a
  match a with
  | ⟨0, _⟩ => exact word_small _ hb
  | ⟨1, _⟩ =>
    show (tbl m 0 _).toNat = (tbl m 0 (ix2 (bOf t) (kOf t))).toNat
    refine congrArg (fun x => (tbl m 0 x).toNat) (funext fun d => Fin.ext ?_)
    match d with
    | ⟨0, _⟩ =>
      show (BitVec.ofNat 32 (grid0.coords t 0).val).toNat + 1 * 0 = (grid0.coords t 0).val
      rw [word_small _ hb]; omega
    | ⟨1, _⟩ =>
      show (BitVec.ofNat 32 (grid0.coords t 1).val).toNat + 1 * 0 = (grid0.coords t 1).val
      rw [word_small _ (by omega)]; omega
  | ⟨2, _⟩ => rfl
  | ⟨3, _⟩ => rfl

/-- Entry (0, 0, h, w) of the block input window 1 holds at point t is the array's entry
    (b, labelseq[b, k], h, w). -/
theorem block1_entry (hO : Ok m) (hL : ∀ x : S8x4.Idx, (tbl m 0 x).toNat < 16) (c : Dev nD)
    (t : Fin (cfgM m hO).N) (h w : Fin 512) :
    iblk m hO c 1 t (ix4 (0 : Fin 1) (0 : Fin 1) h w)
      = m ((c : Thread nD τ).loc main_arg1)
          (ix4 (bOf t) (⟨(tbl m 0 (ix2 (bOf t) (kOf t))).toNat, hL _⟩ : Fin 16) h w) := by
  show V m c main_arg1 ((((cfgM m hO).win 1).blk t).view.emb (ix4 (0 : Fin 1) (0 : Fin 1) h w)) = _
  refine congrArg (m ((c : Thread nD τ).loc main_arg1)) (funext fun a => Fin.ext ?_)
  have e := index_map1 m t
  match a with
  | ⟨0, _⟩ =>
    show cc0_transform_1 k0_off1_inb numel1_S1x1 (tbl m) (grid0.coords t) (0 : Fin 4) * 1 + 1 * 0 = (grid0.coords t 0).val
    rw [e]; simp
  | ⟨1, _⟩ =>
    show cc0_transform_1 k0_off1_inb numel1_S1x1 (tbl m) (grid0.coords t) (1 : Fin 4) * 1 + 1 * 0
      = (tbl m 0 (ix2 (bOf t) (kOf t))).toNat
    rw [e]; simp
  | ⟨2, _⟩ =>
    show cc0_transform_1 k0_off1_inb numel1_S1x1 (tbl m) (grid0.coords t) (2 : Fin 4) * 512 + 1 * h.val = h.val
    rw [e]; simp
  | ⟨3, _⟩ =>
    show cc0_transform_1 k0_off1_inb numel1_S1x1 (tbl m) (grid0.coords t) (3 : Fin 4) * 512 + 1 * w.val = w.val
    rw [e]; simp

end Cert.KernelIdeal.Blocks

end
-- ==== Proof.SelectedLoss.lean ====
/-
  The whole result as a function of the three arguments.

  `lossAt P T L b k` is the loss of the channel slice that the label table selects for batch row b and slot k:
  the [512, 512] slices of P and of T at batch row b and channel L[b, k] (the table's word read unsigned; the
  hypothesis says it is a channel number). `meanOfMeans` is what both programs do with the [8, 4] array of
  these losses: sum over the 4 slots and divide by 4, then sum over the 8 batch rows and divide by 8. It is
  stated once, over any reading of floats, with the shape facts it needs as arguments, and is never opened:
  both programs apply it to arrays that are shown equal.
-/
import proofs.«413899_j6021544149734_1_alg».proof.Proof.SliceLoss
import Idealize.ShloMosaic.Lib.ValueIdx
import Idealize.ShloMosaic.PureOps

noncomputable section

namespace Cert.SelectedLoss

open Idealize.ShloMosaic Idealize.ShloMosaic.ValueIdx Cert.SliceLoss

abbrev Arr : Shape := ⟨4, ![8, 16, 512, 512]⟩
abbrev Tab : Shape := ⟨2, ![8, 4]⟩
abbrev Row : Shape := ⟨1, ![8]⟩
abbrev Scal : Shape := ⟨0, ![]⟩

/-- The loss of the slice selected for batch row `b` and slot `k`. -/
def lossAt (P T : Arr.Idx → EReal) (L : Tab.Idx → BitVec 32) (hL : ∀ x, (L x).toNat < 16) (b : Fin 8) (k : Fin 4) : EReal :=
  sliceLoss (fun h w => P (ix4 b (⟨(L (ix2 b k)).toNat, hL _⟩ : Fin 16) h w))
    (fun h w => T (ix4 b (⟨(L (ix2 b k)).toNat, hL _⟩ : Fin 16) h w))

/-- The mean over the batch rows of the means over the slots. -/
def meanOfMeans {F : FTy → Type} [FloatOps F] (r1 : Tab.ReducesTo [1] Row) (r0 : Row.ReducesTo [0] Scal)
    (bc : Scal.BroadcastsInDim Row (![] : Fin 0 → Fin Row.rank)) (h0 : 0 < Scal.numel)
    (x : FVec F Tab .f32) : FVec F Scal .f32 :=
  Host.divf
    (Host.reduceAdd
      (Host.divf (Host.reduceAdd x (constant (F := F) Scal .f32 0x00000000#32) r1 h0)
        (broadcastInDim Row ![] bc (constant (F := F) Scal .f32 0x40800000#32)))
      (constant (F := F) Scal .f32 0x00000000#32) r0 h0)
    (constant (F := F) Scal .f32 0x41000000#32)

end Cert.SelectedLoss

end
-- ==== Proof.FinalArrayIdeal.lean ====
/-
  The result array of the region. The output window's index map sends the grid point (b, k) to the one-entry
  block (b, k, 0, 0) of the [8, 4, 1, 1] result, and every point writes its block back: the 32 points' blocks
  are the 32 entries, each written once. Point (b, k) writes the stored value of its two input blocks, which is
  the loss of the slice the label table selects for (b, k). So the result array holds, at (b, k, 0, 0), that loss.
-/
import proofs.«413899_j6021544149734_1_alg».proof.Proof.Gen.KernelIdeal.Frame
import proofs.«413899_j6021544149734_1_alg».proof.Proof.BodyValueIdeal
import proofs.«413899_j6021544149734_1_alg».proof.Proof.PayloadIdeal
import proofs.«413899_j6021544149734_1_alg».proof.Proof.BlocksIdeal
import proofs.«413899_j6021544149734_1_alg».proof.Proof.SelectedLoss
import Idealize.ShloMosaic.Lib.Pipeline.Value

set_option maxRecDepth 16384

noncomputable section

namespace Cert.KernelIdeal.FinalArray

open Cert.KernelIdeal Cert.KernelIdeal.Gen Cert.KernelIdeal.Blocks
open Idealize.ShloMosaic Idealize.ShloMosaic.TcCoe Idealize.SL.Sem Idealize.ShloMosaic.ValueIdx
open Idealize.ShloMosaic.Pipeline (Dat)
open Cert.SliceLoss Cert.SelectedLoss

variable (m : (ℓ : Loc nD τ sig) → Buf (Elt Ideal) ℓ)

/-- The [8, 4, 1, 1] array of the selected slices' losses. -/
def lossArr (hL : ∀ x : S8x4.Idx, (tbl m 0 x).toNat < 16) (c : Dev nD) : S8x4x1x1.Idx → EReal := fun i =>
  lossAt (m ((c : Thread nD τ).loc main_arg0)) (m ((c : Thread nD τ).loc main_arg1)) (tbl m 0) hL
    ⟨(i 0).val, (i 0).isLt⟩ ⟨(i 1).val, (i 1).isLt⟩

/-- Its entry at an index whose first two coordinates are b and k. -/
theorem lossArr_eq (hL : ∀ x : S8x4.Idx, (tbl m 0 x).toNat < 16) (c : Dev nD) (i : S8x4x1x1.Idx) (b : Fin 8) (k : Fin 4)
    (hb : (i 0).val = b.val) (hk : (i 1).val = k.val) :
    lossArr m hL c i
      = lossAt (m ((c : Thread nD τ).loc main_arg0)) (m ((c : Thread nD τ).loc main_arg1)) (tbl m 0) hL b k := by
  have eb : (⟨(i 0).val, (i 0).isLt⟩ : Fin 8) = b := Fin.ext hb
  have ek : (⟨(i 1).val, (i 1).isLt⟩ : Fin 4) = k := Fin.ext hk
  unfold lossArr
  rw [eb, ek]

/-- The output window's index map, decided over the grid: point (b, k) has block (b, k, 0, 0). -/
theorem out_index : ∀ t : Fin grid0.N,
    cc0_transform_2 (grid0.coords t) = ![(grid0.coords t 0).val, (grid0.coords t 1).val, 0, 0] := by
  decide +kernel

/-- Every pair (b, k) is some grid point's. -/
theorem point_of : ∀ (b : Fin 8) (k : Fin 4), ∃ t : Fin grid0.N,
    (grid0.coords t 0).val = b.val ∧ (grid0.coords t 1).val = k.val := by
  decide +kernel

/-- The two input blocks at point t, as [1, 1, 512, 512] vectors. -/
abbrev blk0 (hO : Ok m) (c : Dev nD) (t : Fin (cfgM m hO).N) : Vec Ideal S1x1x512x512 .f32 := iblk m hO c 0 t
abbrev blk1 (hO : Ok m) (c : Dev nD) (t : Fin (cfgM m hO).N) : Vec Ideal S1x1x512x512 .f32 := iblk m hO c 1 t

/-- The value stored at point t is the loss of the slice selected for the point's batch row and slot. -/
theorem stored_at (hO : Ok m) (hL : ∀ x : S8x4.Idx, (tbl m 0 x).toNat < 16) (c : Dev nD) (t : Fin (cfgM m hO).N)
    (j : S1x1x1x1.Idx) :
    k0_pay1 (F := Ideal) (blk0 m hO c t) (blk1 m hO c t) j
      = lossArr m hL c (ix4 (bOf t) (kOf t) (0 : Fin 1) (0 : Fin 1)) := by
  refine (Cert.KernelIdeal.Payload.pay_eq (blk0 m hO c t) (blk1 m hO c t) j).trans ?_
  refine Eq.trans ?_ (lossArr_eq m hL c (ix4 (bOf t) (kOf t) (0 : Fin 1) (0 : Fin 1)) (bOf t) (kOf t) rfl rfl).symm
  unfold lossAt
  exact sliceLoss_congr (fun h w => block0_entry m hO hL c t h w) (fun h w => block1_entry m hO hL c t h w)

/-- The one entry of point t's output block sits at (b, k, 0, 0) of the result. -/
theorem out_entry (hO : Ok m) (t : Fin (cfgM m hO).N) (j : S1x1x1x1.Idx) :
    ((((cfgM m hO).win 2).blk t).view.emb j : S8x4x1x1.Idx) = ix4 (bOf t) (kOf t) (0 : Fin 1) (0 : Fin 1) := by
  have e := out_index t
  have hj0 : (j 0).val < 1 := (j 0).isLt
  have hj1 : (j 1).val < 1 := (j 1).isLt
  have hj2 : (j 2).val < 1 := (j 2).isLt
  have hj3 : (j 3).val < 1 := (j 3).isLt
  funext a
  refine Fin.ext ?_
  match a with
  | ⟨0, _⟩ =>
    show cc0_transform_2 (grid0.coords t) (0 : Fin 4) * 1 + 1 * (j 0).val = (grid0.coords t 0).val
    rw [e]; simp; omega
  | ⟨1, _⟩ =>
    show cc0_transform_2 (grid0.coords t) (1 : Fin 4) * 1 + 1 * (j 1).val = (grid0.coords t 1).val
    rw [e]; simp; omega
  | ⟨2, _⟩ =>
    show cc0_transform_2 (grid0.coords t) (2 : Fin 4) * 1 + 1 * (j 2).val = 0
    rw [e]; simp; omega
  | ⟨3, _⟩ =>
    show cc0_transform_2 (grid0.coords t) (3 : Fin 4) * 1 + 1 * (j 3).val = 0
    rw [e]; simp; omega

/-- What point t writes back is its block of the array of losses. -/
theorem flushed_eq (hO : Ok m) (hL : ∀ x : S8x4.Idx, (tbl m 0 x).toNat < 16) (c : Dev nD) (t : Fin (cfgM m hO).N) :
    (dats m hO 0 c).flushed 2 t = (((cfgM m hO).win 2).blk t).view.read (Elt Ideal) (lossArr m hL c) := by
  show ((cfgM m hO).win 2).cut (grid0.coords t) ((dats m hO 0 c).after 2 t) = _
  rw [after0_2, Cert.KernelIdeal.BodyValue.outsAt_eq]
  funext j
  exact (stored_at m hO hL c t j).trans (congrArg (lossArr m hL c) (out_entry m hO t j).symm)

/-- Every entry of the result is in the block of the point with its batch row and slot. -/
theorem covered (hO : Ok m) (c : Dev nD) (i : S8x4x1x1.Idx) :
    ∃ t : Fin (cfgM m hO).N, ((cfgM m hO).win 2).flush t = true ∧ i ∈ (((cfgM m hO).win 2).blk t).view.set := by
  obtain ⟨t, h0, h1⟩ := point_of ⟨(i 0).val, (i 0).isLt⟩ ⟨(i 1).val, (i 1).isLt⟩
  refine ⟨t, flush0_2 (adm m hO) t, ?_⟩
  rw [show (((cfgM m hO).win 2).blk t).view.set = (((cfgM m hO).win 2).rect t).set from View.set_slice_whole _ _]
  refine Rect.mem_set_unit.2 fun a => ?_
  have e := out_index t
  have hi2 : (i 2).val < 1 := (i 2).isLt
  have hi3 : (i 3).val < 1 := (i 3).isLt
  have h0' : (grid0.coords t 0).val = (i 0).val := h0
  have h1' : (grid0.coords t 1).val = (i 1).val := h1
  match a with
  | ⟨0, _⟩ =>
    show cc0_transform_2 (grid0.coords t) (0 : Fin 4) * 1 ≤ (i 0).val ∧ (i 0).val < cc0_transform_2 (grid0.coords t) (0 : Fin 4) * 1 + 1
    rw [e]; simp; omega
  | ⟨1, _⟩ =>
    show cc0_transform_2 (grid0.coords t) (1 : Fin 4) * 1 ≤ (i 1).val ∧ (i 1).val < cc0_transform_2 (grid0.coords t) (1 : Fin 4) * 1 + 1
    rw [e]; simp; omega
  | ⟨2, _⟩ =>
    show cc0_transform_2 (grid0.coords t) (2 : Fin 4) * 1 ≤ (i 2).val ∧ (i 2).val < cc0_transform_2 (grid0.coords t) (2 : Fin 4) * 1 + 1
    rw [e]; simp; omega
  | ⟨3, _⟩ =>
    show cc0_transform_2 (grid0.coords t) (3 : Fin 4) * 1 ≤ (i 3).val ∧ (i 3).val < cc0_transform_2 (grid0.coords t) (3 : Fin 4) * 1 + 1
    rw [e]; simp; omega

/-- After the region the result array is the array of losses. -/
theorem result_array (hO : Ok m) (hL : ∀ x : S8x4.Idx, (tbl m 0 x).toNat < 16) (c : Dev nD) :
    (dats m hO 0 c).arrAt 2 (cfgM m hO).N = lossArr m hL c :=
  (dats m hO 0 c).arrAt_eq_of_cover 2 (lossArr m hL c) (fun t _ => flushed_eq m hO hL c t) (covered m hO c)

end Cert.KernelIdeal.FinalArray

end
-- ==== Proof.KernelRunIdeal.lean ====
/-
  The idealized kernel's run, read. After the region the result array holds the 32 losses; the host lines that
  follow reshape it to [8, 4] and take the mean over the batch rows of the means over the slots. The three
  argument arrays end as they were: the two float arrays are inputs of the region, and no line writes the table.
-/
import proofs.«413899_j6021544149734_1_alg».proof.Proof.FinalArrayIdeal
import Idealize.ShloMosaic.Lib.StableHlo.Run

set_option maxRecDepth 16384

noncomputable section

namespace Cert.KernelIdeal.Run

open Cert.KernelIdeal Cert.KernelIdeal.Gen Cert.KernelIdeal.FinalArray
open Idealize.ShloMosaic Idealize.ShloMosaic.TcCoe Idealize.SL.Sem Idealize.ShloMosaic.ValueIdx
open Idealize.ShloMosaic.Pipeline (Dat)
open Cert.SelectedLoss

variable (m : (ℓ : Loc nD τ sig) → Buf (Elt Ideal) ℓ) (ρ : Dev nD → PrngReg)

/-- The program's result as a function of the arguments: the mean of means of the reshaped array of losses. -/
def result (hL : ∀ x : S8x4.Idx, (tbl m 0 x).toNat < 16) (c : Dev nD) : Buf (Elt Ideal) ((c : Thread nD τ).loc main_v6) :=
  meanOfMeans (F := Ideal) reducesTo_S8x4_S8_d1 reducesTo_S8_S_d0 bcast_S_S8 h_S_
    (shapeCast S8x4 (lossArr m hL c) shapeCasts_S8x4x1x1_S8x4)

/-- What the host lines after the region leave in the result buffer. -/
theorem tail_eq (hO : Ok m) (hL : ∀ x : S8x4.Idx, (tbl m 0 x).toNat < 16) (c : Dev nD) :
    Pipeline.afterTail pcfgs (fun _ => adm m hO) (dats m hO) 0 (V0 m) [hostOps1] c main_v6 = result m hL c := by
  unfold Pipeline.afterTail
  show StableHlo.after hostOps1 _ (Proc.devRef .tc main_v6) = _
  after_results
  have hw : Pipeline.withArrays (Pipeline.pin pcfgs (fun _ => adm m hO) 0).spec c (V0 m c)
      (fun w => (dats m hO 0 c).arrAt w (Pipeline.pin pcfgs (fun _ => adm m hO) 0).N) (Proc.devRef .tc main_v0)
      = lossArr m hL c :=
    (Pipeline.withArrays_arr spec0 (launch0 (F := Ideal)).win.arr_inj c _ _ 2).trans (result_array m hO hL c)
  exact congrArg (fun A => meanOfMeans (F := Ideal) reducesTo_S8x4_S8_d1 reducesTo_S8_S_d0 bcast_S_S8 h_S_
    (shapeCast S8x4 A shapeCasts_S8x4x1x1_S8x4)) hw

/-- Every weakly fair execution of the idealized kernel ends with the result buffer at the mean of means of the
    selected slices' losses, and the three argument arrays unchanged. -/
theorem run (hO : Ok m) (hL : ∀ x : S8x4.Idx, (tbl m 0 x).toNat < 16) :
    θ_run defs (onTc (τ := τ) (main (F := Ideal))) ⟨m, fun _ => 0, ρ⟩ fun r => ∀ c : Dev nD,
      r.2.mem ((c.tc : Thread nD τ).loc main_v6) = result m hL c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v6 (by decide : main_v6 ∈ Pipeline.restRefs sig spec0)).trans (tail_eq m hO hL c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (W_main_arg2 m hO (dats m hO) c)⟩)
    (run_main m ρ hO)

end Cert.KernelIdeal.Run

end
-- ==== Proof.ReferenceSelect.lean ====
/-
  The reference's channel selection under the label range. `take_along_axis` is printed as: wrap a negative
  index by adding 16; test the wrapped index against [0, 15]; gather the slice at the wrapped index, the gather
  clamping its start into [0, 15]; keep the gathered entry where the test passed and a fill value elsewhere.
  A word that is below 16 read unsigned is nonnegative read signed, so the wrap leaves it alone, the test
  passes, the clamp leaves it alone, and the selected array's entry (b, k, h, w) is the argument's entry
  (b, labelseq[b, k], h, w).
-/
import proofs.«413899_j6021544149734_1_alg».proof.Proof.Gen.ReferenceIdeal.Read
import Idealize.ShloMosaic.Lib.ValueIdx
import Idealize.ShloMosaic.Lib.ReduceAll

set_option maxRecDepth 16384

noncomputable section

namespace Cert.ReferenceIdeal.Select

open Cert.ReferenceIdeal Cert.ReferenceIdeal.Gen Cert.ReferenceIdeal.Read
open Idealize.ShloMosaic Idealize.ShloMosaic.ValueIdx

variable {F : FTy → Type} [FloatOps F]

/-! ## Words below 16 -/

/-- A property of 32-bit words holds of a word below 16 when it holds of the sixteen numerals. -/
theorem word_cases (W : BitVec 32) (hW : W.toNat < 16) (P : BitVec 32 → Prop)
    (h : ∀ n : Fin 16, P (BitVec.ofNat 32 n.val)) : P W := by
  have e : W = BitVec.ofNat 32 W.toNat :=
    BitVec.eq_of_toNat_eq (by rw [BitVec.toNat_ofNat]; exact (Nat.mod_eq_of_lt (by omega)).symm)
  rw [e]
  exact h ⟨W.toNat, hW⟩

/-- Wrapping a negative index by 16 leaves a channel number alone. -/
theorem wrap_id (W : BitVec 32) (hW : W.toNat < 16) :
    Scalar.select (IntOp.cmpi .slt W 0#32) (IntOp.addi W 16#32) W = W :=
  word_cases W hW (fun W => Scalar.select (IntOp.cmpi .slt W 0#32) (IntOp.addi W 16#32) W = W) (by decide)

/-- A channel number passes the test against [0, 15]. -/
theorem in_range (W : BitVec 32) (hW : W.toNat < 16) :
    IntOp.andi (IntOp.cmpi .sge W 0#32) (IntOp.cmpi .sle W 15#32) = 1#1 :=
  word_cases W hW (fun W => IntOp.andi (IntOp.cmpi .sge W 0#32) (IntOp.cmpi .sle W 15#32) = 1#1) (by decide)

/-- Clamping a channel number, read signed, into [0, 15] gives the number. -/
theorem clamp_id (W : BitVec 32) (hW : W.toNat < 16) : min W.toInt.toNat 15 = W.toNat :=
  word_cases W hW (fun W => min W.toInt.toNat 15 = W.toNat) (by decide)

/-! ## A conjunction of ones is one -/

theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi (1#1 : BitVec 1) 1#1 = 1#1 from by decide]
    exact foldl_andi_one f hf l

/-- A reduction by `and` from 1 over an array of ones is 1 at every result index. -/
theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_one x hx _

/-! ## The gather -/

abbrev GD : GatherDims S8x16x512x512 S8x4x1 S8x4x512x512 := gather_S8x16x512x512_S8x4x1_S8x4x512x512_23_1_0_0_1_2_11512512

/-- The gathered entry (b, k, h, w) is the operand's entry (b, clamp idx[b, k, 0], h, w): batch axis 0 is carried,
    axis 1 is indexed, axes 2 and 3 are offsets inside the slice. -/
theorem gather_entry {α : Type} (x : S8x16x512x512.Idx → α) (idx : IVec S8x4x1 32) (b : Fin 8) (k : Fin 4) (h w : Fin 512) :
    Host.gather GD x idx (ix4 b k h w)
      = x (ix4 b (⟨min (idx (ix3 b k (0 : Fin 1))).toInt.toNat 15, by omega⟩ : Fin 16) h w) := by
  unfold Host.gather
  refine congrArg x (funext fun a => Fin.ext ?_)
  have hb0 : (0 : Fin 4) ∈ GD.operandBatchingDims := List.mem_singleton.mpr rfl
  have hc1 : (1 : Fin 4) ∈ GD.collapsedSliceDims := List.mem_singleton.mpr rfl
  match a with
  | ⟨0, _⟩ =>
    show GD.start (ix4 b k h w) idx (0 : Fin 4) + GD.batchCoord (ix4 b k h w) (0 : Fin 4) + GD.offCoord (ix4 b k h w) (0 : Fin 4) = b.val
    rw [GD.start_batching _ idx (0 : Fin 4) hb0, GD.offCoord_eq_zero _ (0 : Fin 4) (fun hh => ((GD.mem_sKept (0 : Fin 4)).mp hh).2 hb0)]
    unfold GatherDims.batchCoord
    rw [dif_pos hb0]
    simp only [Nat.zero_add, Nat.add_zero]
    rfl
  | ⟨1, _⟩ =>
    show GD.start (ix4 b k h w) idx (1 : Fin 4) + GD.batchCoord (ix4 b k h w) (1 : Fin 4) + GD.offCoord (ix4 b k h w) (1 : Fin 4)
      = min (idx (ix3 b k (0 : Fin 1))).toInt.toNat 15
    rw [GD.batchCoord_eq_zero _ (1 : Fin 4) (by decide), GD.offCoord_eq_zero _ (1 : Fin 4) (fun hh => ((GD.mem_sKept (1 : Fin 4)).mp hh).1 hc1)]
    simp only [Nat.add_zero]
    unfold GatherDims.start
    rw [dif_pos (show (1 : Fin 4) ∈ GD.startIndexMap from List.mem_singleton.mpr rfl)]
    have hsi : GD.siIdx (ix4 b k h w) ⟨List.idxOf (1 : Fin 4) GD.startIndexMap,
        List.idxOf_lt_length_iff.2 (List.mem_singleton.mpr rfl)⟩ = ix3 b k (0 : Fin 1) := by
      funext d; refine Fin.ext ?_
      match d with
      | ⟨0, _⟩ => rfl
      | ⟨1, _⟩ => rfl
      | ⟨2, _⟩ => rfl
    rw [hsi]
    rfl
  | ⟨2, _⟩ =>
    show GD.start (ix4 b k h w) idx (2 : Fin 4) + GD.batchCoord (ix4 b k h w) (2 : Fin 4) + GD.offCoord (ix4 b k h w) (2 : Fin 4) = h.val
    rw [GD.batchCoord_eq_zero _ (2 : Fin 4) (by decide)]
    unfold GatherDims.start
    rw [dif_neg (show (2 : Fin 4) ∉ GD.startIndexMap from by decide)]
    unfold GatherDims.offCoord
    rw [dif_pos (show (2 : Fin 4) ∈ GD.sKept from by decide)]
    simp only [Nat.zero_add, Nat.add_zero]
    rfl
  | ⟨3, _⟩ =>
    show GD.start (ix4 b k h w) idx (3 : Fin 4) + GD.batchCoord (ix4 b k h w) (3 : Fin 4) + GD.offCoord (ix4 b k h w) (3 : Fin 4) = w.val
    rw [GD.batchCoord_eq_zero _ (3 : Fin 4) (by decide)]
    unfold GatherDims.start
    rw [dif_neg (show (3 : Fin 4) ∉ GD.startIndexMap from by decide)]
    unfold GatherDims.offCoord
    rw [dif_pos (show (3 : Fin 4) ∈ GD.sKept from by decide)]
    simp only [Nat.zero_add, Nat.add_zero]
    rfl

/-! ## The selection of the first argument -/

/-- The wrapped index at (b, k, 0) is the table's word at (b, k). -/
theorem wrapped_call0 (x2 : IVec S8x4 32) (hL : ∀ i, (x2 i).toNat < 16) (b : Fin 8) (k : Fin 4) (z : Fin 1) :
    val_main_call0_v5 (F := F) x2 (ix3 b k z) = x2 (ix2 b k) := by
  have hz : z.val < 1 := z.isLt
  have hk : k.val < 4 := k.isLt
  have hq : idx_main_call0_v5 (ix3 b k z) = ix4 b k (0 : Fin 1) (0 : Fin 1) := by
    funext a; refine Fin.ext ?_
    match a with
    | ⟨0, _⟩ => show ((b.val * 4 + k.val) * 1 + z.val) / 4 = b.val; omega
    | ⟨1, _⟩ => show ((b.val * 4 + k.val) * 1 + z.val) / 1 % 4 = k.val; omega
    | ⟨2, _⟩ => rfl
    | ⟨3, _⟩ => rfl
  have h0 : idx_main_v0 (ix4 b k (0 : Fin 1) (0 : Fin 1)) = ix2 b k := by
    funext a; refine Fin.ext ?_
    match a with
    | ⟨0, _⟩ => rfl
    | ⟨1, _⟩ => rfl
  rw [val_main_call0_v5_apply, hq, val_main_call0_v4_apply, val_main_call0_v1_apply, val_main_call0_v3_apply,
    val_main_v0_apply, h0, val_main_call0_v0_apply, val_main_call0_c_apply, val_main_call0_v2_apply, val_main_call0_c_0_apply]
  exact wrap_id _ (hL _)

/-- The range test is 1 at every (b, k). -/
theorem tested_call0 (x2 : IVec S8x4 32) (hL : ∀ i, (x2 i).toNat < 16) (j : S8x4.Idx) :
    val_main_call0_v12 (F := F) x2 j = 1#1 := by
  unfold val_main_call0_v12
  refine reduce_andi_one _ _ _ _ rfl (fun i => ?_) j
  obtain ⟨b, k, z, rfl⟩ : ∃ (b : Fin 8) (k : Fin 4) (z : Fin 1), i = ix3 b k z := ⟨i 0, i 1, i 2, eq_ix3 i⟩
  rw [val_main_call0_v11_apply, val_main_call0_v7_apply, val_main_call0_v10_apply, wrapped_call0 x2 hL b k z,
    val_main_call0_v6_apply, val_main_call0_c_2_apply, val_main_call0_v9_apply, val_main_call0_v8_apply, val_main_call0_c_1_apply]
  exact in_range _ (hL _)

/-- The selected array's entry (b, k, h, w) is the argument's entry (b, labelseq[b, k], h, w). -/
theorem selected_call0 (x0 : S8x16x512x512.Idx → Elt F .f32) (x2 : IVec S8x4 32) (hL : ∀ i, (x2 i).toNat < 16)
    (b : Fin 8) (k : Fin 4) (h w : Fin 512) :
    val_main_v1 (F := F) x0 x2 (ix4 b k h w) = x0 (ix4 b (⟨(x2 (ix2 b k)).toNat, hL _⟩ : Fin 16) h w) := by
  rw [val_main_v1_apply, val_main_call0_v14_apply, tested_call0 x2 hL]
  show val_main_call0_v13 (F := F) x0 x2 (ix4 b k h w) = _
  unfold val_main_call0_v13
  refine (gather_entry x0 (val_main_call0_v5 (F := F) x2) b k h w).trans ?_
  refine congrArg x0 (funext fun a => Fin.ext ?_)
  match a with
  | ⟨0, _⟩ => rfl
  | ⟨1, _⟩ =>
    show min (val_main_call0_v5 (F := F) x2 (ix3 b k (0 : Fin 1))).toInt.toNat 15 = (x2 (ix2 b k)).toNat
    rw [wrapped_call0 x2 hL b k (0 : Fin 1)]
    exact clamp_id _ (hL _)
  | ⟨2, _⟩ => rfl
  | ⟨3, _⟩ => rfl

/-! ## The selection of the second argument -/

/-- The wrapped index at (b, k, 0) is the table's word at (b, k). -/
theorem wrapped_call1 (x2 : IVec S8x4 32) (hL : ∀ i, (x2 i).toNat < 16) (b : Fin 8) (k : Fin 4) (z : Fin 1) :
    val_main_call1_v5 (F := F) x2 (ix3 b k z) = x2 (ix2 b k) := by
  have hz : z.val < 1 := z.isLt
  have hk : k.val < 4 := k.isLt
  have hq : idx_main_call1_v5 (ix3 b k z) = ix4 b k (0 : Fin 1) (0 : Fin 1) := by
    funext a; refine Fin.ext ?_
    match a with
    | ⟨0, _⟩ => show ((b.val * 4 + k.val) * 1 + z.val) / 4 = b.val; omega
    | ⟨1, _⟩ => show ((b.val * 4 + k.val) * 1 + z.val) / 1 % 4 = k.val; omega
    | ⟨2, _⟩ => rfl
    | ⟨3, _⟩ => rfl
  have h0 : idx_main_v0 (ix4 b k (0 : Fin 1) (0 : Fin 1)) = ix2 b k := by
    funext a; refine Fin.ext ?_
    match a with
    | ⟨0, _⟩ => rfl
    | ⟨1, _⟩ => rfl
  rw [val_main_call1_v5_apply, hq, val_main_call1_v4_apply, val_main_call1_v1_apply, val_main_call1_v3_apply,
    val_main_v0_apply, h0, val_main_call1_v0_apply, val_main_call1_c_apply, val_main_call1_v2_apply, val_main_call1_c_0_apply]
  exact wrap_id _ (hL _)

/-- The range test is 1 at every (b, k). -/
theorem tested_call1 (x2 : IVec S8x4 32) (hL : ∀ i, (x2 i).toNat < 16) (j : S8x4.Idx) :
    val_main_call1_v12 (F := F) x2 j = 1#1 := by
  unfold val_main_call1_v12
  refine reduce_andi_one _ _ _ _ rfl (fun i => ?_) j
  obtain ⟨b, k, z, rfl⟩ : ∃ (b : Fin 8) (k : Fin 4) (z : Fin 1), i = ix3 b k z := ⟨i 0, i 1, i 2, eq_ix3 i⟩
  rw [val_main_call1_v11_apply, val_main_call1_v7_apply, val_main_call1_v10_apply, wrapped_call1 x2 hL b k z,
    val_main_call1_v6_apply, val_main_call1_c_2_apply, val_main_call1_v9_apply, val_main_call1_v8_apply, val_main_call1_c_1_apply]
  exact in_range _ (hL _)

/-- The selected array's entry (b, k, h, w) is the argument's entry (b, labelseq[b, k], h, w). -/
theorem selected_call1 (x1 : S8x16x512x512.Idx → Elt F .f32) (x2 : IVec S8x4 32) (hL : ∀ i, (x2 i).toNat < 16)
    (b : Fin 8) (k : Fin 4) (h w : Fin 512) :
    val_main_v2 (F := F) x1 x2 (ix4 b k h w) = x1 (ix4 b (⟨(x2 (ix2 b k)).toNat, hL _⟩ : Fin 16) h w) := by
  rw [val_main_v2_apply, val_main_call1_v14_apply, tested_call1 x2 hL]
  show val_main_call1_v13 (F := F) x1 x2 (ix4 b k h w) = _
  unfold val_main_call1_v13
  refine (gather_entry x1 (val_main_call1_v5 (F := F) x2) b k h w).trans ?_
  refine congrArg x1 (funext fun a => Fin.ext ?_)
  match a with
  | ⟨0, _⟩ => rfl
  | ⟨1, _⟩ =>
    show min (val_main_call1_v5 (F := F) x2 (ix3 b k (0 : Fin 1))).toInt.toNat 15 = (x2 (ix2 b k)).toNat
    rw [wrapped_call1 x2 hL b k (0 : Fin 1)]
    exact clamp_id _ (hL _)
  | ⟨2, _⟩ => rfl
  | ⟨3, _⟩ => rfl

end Cert.ReferenceIdeal.Select

end
-- ==== Proof.ReferenceValue.lean ====
/-
  The reference's result, read over the extended reals. With the two selected arrays identified, the reference
  computes per (b, k, h) the row's ratio from three sums over w, per (b, k) one minus the mean of the 512 ratios,
  and then the mean over the batch rows of the means over the slots. The host's sums start from the zero word,
  which is the number 0, so each is the plain finite sum; everything else is the same operations on the same words
  as in the specification.
-/
import proofs.«413899_j6021544149734_1_alg».proof.Proof.ReferenceSelect
import proofs.«413899_j6021544149734_1_alg».proof.Proof.SelectedLoss
import Idealize.ShloMosaic.PureOps.Ideal.Laws

set_option maxRecDepth 16384

noncomputable section

namespace Cert.ReferenceIdeal.RefValue

open Cert.ReferenceIdeal Cert.ReferenceIdeal.Gen Cert.ReferenceIdeal.Read Cert.ReferenceIdeal.Select
open Idealize.ShloMosaic Idealize.ShloMosaic.ValueIdx
open Cert.SliceLoss Cert.SelectedLoss

variable (x0 x1 : S8x16x512x512.Idx → EReal) (x2 : IVec S8x4 32) (hL : ∀ i, (x2 i).toNat < 16)

/-- The selected slices for batch row b and slot k. -/
abbrev selP (b : Fin 8) (k : Fin 4) : Fin 512 → Fin 512 → EReal :=
  fun h w => x0 (ix4 b (⟨(x2 (ix2 b k)).toNat, hL _⟩ : Fin 16) h w)
abbrev selT (b : Fin 8) (k : Fin 4) : Fin 512 → Fin 512 → EReal :=
  fun h w => x1 (ix4 b (⟨(x2 (ix2 b k)).toNat, hL _⟩ : Fin 16) h w)

theorem idx4 (b : Fin 8) (k : Fin 4) (h w : Fin 512) : idx_main_v4 (ix3 b k h) w = ix4 b k h w := by
  funext a; refine Fin.ext ?_
  match a with
  | ⟨0, _⟩ => rfl
  | ⟨1, _⟩ => rfl
  | ⟨2, _⟩ => rfl
  | ⟨3, _⟩ => rfl
theorem idx5 (b : Fin 8) (k : Fin 4) (h w : Fin 512) : idx_main_v5 (ix3 b k h) w = ix4 b k h w := idx4 b k h w
theorem idx6 (b : Fin 8) (k : Fin 4) (h w : Fin 512) : idx_main_v6 (ix3 b k h) w = ix4 b k h w := idx4 b k h w
theorem idx15 (b : Fin 8) (k : Fin 4) (h : Fin 512) : idx_main_v15 (ix2 b k) h = ix3 b k h := by
  funext a; refine Fin.ext ?_
  match a with
  | ⟨0, _⟩ => rfl
  | ⟨1, _⟩ => rfl
  | ⟨2, _⟩ => rfl

/-- The reference's ratio of row h of the slices selected for (b, k). -/
theorem row_ref (b : Fin 8) (k : Fin 4) (h : Fin 512) :
    val_main_v14 (F := Ideal) x0 x1 x2 (ix3 b k h) = rowRatio (selP x0 x2 hL b k) (selT x1 x2 hL b k) h := by
  rw [val_main_v14_apply, val_main_v11_apply, val_main_v13_apply, val_main_v9_apply, val_main_v7_apply,
    val_main_v4_apply, val_main_v5_apply, val_main_v6_apply, val_main_v8_apply, val_main_cst_2_apply,
    val_main_v10_apply, val_main_cst_3_apply, val_main_v12_apply, val_main_cst_4_apply,
    val_main_cst_apply, val_main_cst_0_apply, val_main_cst_1_apply]
  simp only [idx4, idx5, idx6, val_main_v3_apply, selected_call0 (F := Ideal) x0 x2 hL, selected_call1 (F := Ideal) x1 x2 hL]
  simp only [Ideal.ofBits_def, Ideal.mulf_def, Ideal.addf_def, Ideal.hostDivf_def, Ideal.ofBits_zero_f32, zero_add]
  rfl

/-- The reference's loss at (b, k) is the loss of the selected slices. -/
theorem loss_ref (b : Fin 8) (k : Fin 4) :
    val_main_v19 (F := Ideal) x0 x1 x2 (ix2 b k) = lossAt x0 x1 x2 hL b k := by
  rw [val_main_v19_apply, val_main_v18_apply, val_main_cst_7_apply, val_main_v17_apply, val_main_v15_apply,
    val_main_v16_apply, val_main_cst_6_apply, val_main_cst_5_apply]
  simp only [idx15, row_ref x0 x1 x2 hL]
  simp only [Ideal.ofBits_def, Ideal.subf_def, Ideal.hostDivf_def, Ideal.ofBits_zero_f32, zero_add]
  rfl

end Cert.ReferenceIdeal.RefValue

end
-- ==== Proof.Bridge.lean ====
/-
  The two results are one number. Both programs end by taking the mean of means of an [8, 4] array: the kernel's
  is the reshape of its [8, 4, 1, 1] result array, whose entry (b, k, 0, 0) is the loss of the slice selected for
  (b, k); the reference's is its own array of losses, whose entry (b, k) is the same loss. A reshape between
  [8, 4, 1, 1] and [8, 4] moves no entry. So the arrays are equal entry by entry, and the results are equal.
-/
import proofs.«413899_j6021544149734_1_alg».proof.Proof.KernelRunIdeal
import proofs.«413899_j6021544149734_1_alg».proof.Proof.ReferenceValue
import Idealize.ShloMosaic.Lib.Pipeline.Value

set_option maxRecDepth 16384

noncomputable section

namespace Cert.Bridge

open Idealize.ShloMosaic Idealize.ShloMosaic.TcCoe Idealize.SL.Sem Idealize.ShloMosaic.ValueIdx
open Cert.SelectedLoss

/-- The reference's result term is `meanOfMeans` of its array of losses: the definitions unfold to it. -/
theorem ref_result (x0 x1 : Cert.ReferenceIdeal.S8x16x512x512.Idx → EReal) (x2 : IVec Cert.ReferenceIdeal.S8x4 32) :
    Cert.ReferenceIdeal.Read.val_main_v24 (F := Ideal) x0 x1 x2
      = meanOfMeans (F := Ideal) Cert.ReferenceIdeal.Gen.reducesTo_S8x4_S8_d1 Cert.ReferenceIdeal.Gen.reducesTo_S8_S_d0
          Cert.ReferenceIdeal.Gen.bcast_S_S8 Cert.ReferenceIdeal.Gen.h_S_ (Cert.ReferenceIdeal.Read.val_main_v19 (F := Ideal) x0 x1 x2) := rfl

/-- Entry (b, k) of the reshaped result array of the kernel is its entry (b, k, 0, 0). -/
theorem reshape_entry (A : Cert.KernelIdeal.S8x4x1x1.Idx → EReal) (b : Fin 8) (k : Fin 4) :
    shapeCast Cert.KernelIdeal.S8x4 A Cert.KernelIdeal.Gen.shapeCasts_S8x4x1x1_S8x4 (ix2 b k) = A (ix4 b k (0 : Fin 1) (0 : Fin 1)) :=
  shapeCast_apply A Cert.KernelIdeal.Gen.shapeCasts_S8x4x1x1_S8x4 (ix2 b k) (ix4 b k (0 : Fin 1) (0 : Fin 1))
    (by rw [Shape.rowMajor_val_four, Shape.rowMajor_val_two]; simp)

open Cert.KernelIdeal Cert.KernelIdeal.Gen in
/-- The reference's result at the kernel's arguments is the kernel's result. -/
theorem results_eq (m : (ℓ : Loc nD τ sig) → Buf (Elt Ideal) ℓ) (hL : ∀ x : S8x4.Idx, (tbl m 0 x).toNat < 16) (c : Dev nD) :
    Cert.ReferenceIdeal.Read.val_main_v24 (F := Ideal) (m ((c.tc : Thread nD τ).loc main_arg0))
        (m ((c.tc : Thread nD τ).loc main_arg1)) (m ((c.tc : Thread nD τ).loc main_arg2))
      = Cert.KernelIdeal.Run.result m hL c := by
  obtain rfl : c = 0 := Subsingleton.elim _ _
  rw [ref_result]
  unfold Cert.KernelIdeal.Run.result
  refine congrArg (meanOfMeans (F := Ideal) _ _ _ _) (funext fun i => ?_)
  obtain ⟨b, k, rfl⟩ : ∃ (b : Fin 8) (k : Fin 4), i = ix2 b k := ⟨i 0, i 1, eq_ix2 i⟩
  rw [reshape_entry, Cert.KernelIdeal.FinalArray.lossArr_eq m hL 0 _ b k rfl rfl]
  exact Cert.ReferenceIdeal.RefValue.loss_ref _ _ _ hL b k

end Cert.Bridge

end
-- ==== Proof.lean ====
/-
  The certificate: the selected-channel dice loss, computed by a kernel that fetches per (b, k) only the channel
  slice the label table names, equals the reference that gathers the channels and reduces with jnp, over the
  extended reals, for finite float inputs and labels in the channel range [0, 16).

  Why the range is needed: the kernel's index maps read the label table, and the block (b, labelseq[b, k], 0, 0)
  lies inside the [8, 16, 512, 512] arrays exactly when the label, read unsigned, is below 16. Under it both
  programs read the same slices: the reference's wrap of negative indices, its range test and its gather's clamp
  all leave a label in range alone.

  Why the results agree: per slice both programs form, per row, (2 * sum_w p*t + eps) / (sum_w p + sum_w t + eps),
  take one minus the mean of the 512 rows, and then the mean over batch rows of the means over slots, with the same
  float words for 2, eps, 512, 1, 4 and 8. The only difference in kind is that the kernel's lane sums are plain sums
  while the host's start from the zero word, which is 0. No law beyond that is used, so finiteness of the inputs
  plays no part in the equality.

  The idealization pass recorded no rewrite of the kernel (its ledger is empty), so the conjunct that relates the
  kernel to its idealization is `True`.
-/
import proofs.«413899_j6021544149734_1_alg».proof.Defs
import proofs.«413899_j6021544149734_1_alg».proof.Proof.Gen.Kernel
import proofs.«413899_j6021544149734_1_alg».proof.Proof.Gen.Kernel.Skeleton
import proofs.«413899_j6021544149734_1_alg».proof.Proof.Gen.Kernel.Launch
import proofs.«413899_j6021544149734_1_alg».proof.Proof.Gen.Kernel.Points
import proofs.«413899_j6021544149734_1_alg».proof.Proof.Gen.Kernel.Frame
import proofs.«413899_j6021544149734_1_alg».proof.Proof.Gen.KernelIdeal
import proofs.«413899_j6021544149734_1_alg».proof.Proof.Gen.KernelIdeal.Skeleton
import proofs.«413899_j6021544149734_1_alg».proof.Proof.Gen.KernelIdeal.Launch
import proofs.«413899_j6021544149734_1_alg».proof.Proof.Gen.KernelIdeal.Points
import proofs.«413899_j6021544149734_1_alg».proof.Proof.Gen.KernelIdeal.Frame
import proofs.«413899_j6021544149734_1_alg».proof.Proof.Gen.ReferenceIdeal
import proofs.«413899_j6021544149734_1_alg».proof.Proof.Gen.ReferenceIdeal.Run
import proofs.«413899_j6021544149734_1_alg».proof.Proof.Gen.ReferenceIdeal.Read
import proofs.«413899_j6021544149734_1_alg».proof.Proof.Gen.Pre_finite_inputs
import proofs.«413899_j6021544149734_1_alg».proof.Proof.TablesInsideBits
import proofs.«413899_j6021544149734_1_alg».proof.Proof.TablesInsideIdeal
import proofs.«413899_j6021544149734_1_alg».proof.Proof.Bridge
import Idealize.ShloMosaic.Adequacy
import Idealize.ShloMosaic.Init

noncomputable section

namespace Cert.Proof

open Idealize.ShloMosaic Idealize.SL.Sem

/-- The kernel as printed runs and keeps its arguments: its generated frame, the table's blocks inside the arrays. -/
theorem frame_k : Cert.frame_Kernel := fun m ρ h =>
  Cert.Kernel.Gen.frame m ρ (Cert.Kernel.TablesInside.ok_of_pre m (h 0))

/-- The same for the idealized kernel. -/
theorem frame_ki : Cert.frame_KernelIdeal := fun m ρ h =>
  Cert.KernelIdeal.Gen.frame m ρ (Cert.KernelIdeal.TablesInside.ok_of_pre m (h 0))

/-- The reference is straight-line host code: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs run from agreeing arguments to the same result. -/
theorem algebraic : Cert.algebraic_KernelIdeal_ReferenceIdeal := by
  intro m ρ m' ρ' hpre hagree
  have hO := Cert.KernelIdeal.TablesInside.ok_of_pre m (hpre 0)
  have hL := Cert.KernelIdeal.TablesInside.table_lt m (hpre 0)
  refine ⟨fun c => Cert.KernelIdeal.Run.result m hL c, Cert.KernelIdeal.Run.run m ρ hO hL, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  exact Cert.Bridge.results_eq m hL c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
